-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S50000x64 : Shape := ⟨2, ![50000, 64]⟩
abbrev S5000x64 : Shape := ⟨2, ![5000, 64]⟩
abbrev S1x128 : Shape := ⟨2, ![1, 128]⟩
abbrev S850000x64 : Shape := ⟨2, ![850000, 64]⟩
abbrev S1x64 : Shape := ⟨2, ![1, 64]⟩

abbrev nBuf : Space → Nat
  | .hbm => 83
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .f32⟩
  | .hbm, ⟨73, _⟩ => ⟨S850000x1, .f32⟩
  | .hbm, ⟨74, _⟩ => ⟨S850000x64, .f32⟩
  | .hbm, ⟨75, _⟩ => ⟨S850000x64, .f32⟩
  | .hbm, ⟨76, _⟩ => ⟨S_, .f32⟩
  | .hbm, ⟨77, _⟩ => ⟨S50000x64, .f32⟩
  | .hbm, ⟨78, _⟩ => ⟨S850000x1, .i32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S50000, .i32⟩
  | 74 => ⟨S850000, .i32⟩
  | 75 => ⟨S850000, .i32⟩
  | 76 => ⟨S50000x64, .f32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The mathematics both programs compute, named once.

  A graph convolution layer on n = 50000 nodes and 800000 given edges: every node gets a self loop (850000 edges in
  all), `deg` counts the edges that END at a node, `dinv` is deg^(-1/2) where the degree is positive and 0 elsewhere,
  the weight of an edge is dinv(source) * dinv(target), and the layer sends a node-feature matrix h to
      agg(h)[v, :] = sum over the edges e that end at v of  weight(e) * h[source(e), :].
  The network is  out = agg(relu(agg(x W1) + b1) W2) + b2.

  The edge bookkeeping (`srcI`, `dstI`, `deg`, `dinv`, `nrm`) and the aggregation (`agg128`, `agg64`) are the same host
  operations in the kernel's program and in the reference, so they are carried as opaque functions and never opened.
  The two dense products are where the programs differ in form (blocks of 5000 rows on the matrix unit against one
  whole product on the host), so they are stated index by index: `lin1` and `lin2`, plain sums over the 128 contracted
  coordinates on the extended reals.
-/
import proofs.«138388_j18648747999233_1_alg».proof.Proof.Gen.KernelIdeal
import Idealize.ShloMosaic.Lib.ValueIdx

noncomputable section

namespace Cert.KernelIdeal.Spec

open Idealize.ShloMosaic Cert.KernelIdeal Cert.KernelIdeal.Gen
open scoped BigOperators

variable {F : FTy → Type} [FloatOps F]

/-! ## The edge lists and their weights -/

/-- Row `r` of the 2 x 800000 edge array as a flat list, followed by the self loops 0, 1, ..., 49999. -/
def endsOf (r : Fin 2 → Nat) (hr : S2x800000.Slices r S1x800000) (e : (⟨S2x800000, .i32⟩ : BufTy).Contents (Elt F)) :
    (⟨S850000, .i32⟩ : BufTy).Contents (Elt F) :=
  concatenate S850000 0 [⟨S800000, (shapeCast _ (extractStridedSlice S1x800000 r e hr) shapeCasts_S1x800000_S800000)⟩, ⟨S50000, (iotaInDim S50000 32 0)⟩] concatenates_S800000_S50000_S850000_d0

/-- The source node of each of the 850000 edges. -/
def srcI (e : (⟨S2x800000, .i32⟩ : BufTy).Contents (Elt F)) : (⟨S850000, .i32⟩ : BufTy).Contents (Elt F) :=
  endsOf (F := F) ![0, 0] slices_S2x800000_S1x800000_0_0 e

/-- The target node of each of the 850000 edges. -/
def dstI (e : (⟨S2x800000, .i32⟩ : BufTy).Contents (Elt F)) : (⟨S850000, .i32⟩ : BufTy).Contents (Elt F) :=
  endsOf (F := F) ![1, 0] slices_S2x800000_S1x800000_1_0 e

/-- A list of node numbers as a column of gather positions: a negative number counts from the end (plus 50000). -/
def wrapCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- How many edges end at each node (self loop included), as a float. -/
def deg (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (dstI (F := F) e))
    (broadcastInDim S850000 ![] bcast_S_S850000 (constant S_ .f32 0x3F800000#32))

/-- deg^(-1/2) where the degree is positive, 0 elsewhere. -/
def dinv (e : (⟨S2x800000, .i32⟩ : BufTy).Contents (Elt F)) : (⟨S50000, .f32⟩ : BufTy).Contents (Elt F) :=
  select (cmpf (F := F) .ogt (deg (F := F) e) (broadcastInDim S50000 ![] bcast_S_S50000 (constant S_ .f32 0x00000000#32)))
    (Host.rsqrt (deg (F := F) e))
    (broadcastInDim S50000 ![] bcast_S_S50000 (id (constant S_ .f32 0x00000000#32)))

/-- The weight of each edge: dinv at its source times dinv at its target. -/
def nrm (e : (⟨S2x800000, .i32⟩ : BufTy).Contents (Elt F)) : (⟨S850000, .f32⟩ : BufTy).Contents (Elt F) :=
  mulf (Host.gather gather_S50000_S850000x1_S850000_n_0_n_n_0_1_1 (dinv (F := F) e) (wrapCol (F := F) (srcI (F := F) e)))
    (Host.gather gather_S50000_S850000x1_S850000_n_0_n_n_0_1_1 (dinv (F := F) e) (wrapCol (F := F) (dstI (F := F) e)))

/-! ## The aggregation over incoming edges, at 128 and at 64 features -/

/-- Row v of the result is the sum, over the edges ending at v, of the edge's weight times row source(edge) of `h`. -/
def agg128 (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 (dstI (F := F) e))
    (mulf (Host.gather gather_S50000x128_S850000x1_S850000x128_1_0_n_n_0_1_1128 h (wrapCol (F := F) (srcI (F := F) e)))
      (broadcastInDim S850000x128 ![0, 1] bcast_S850000x1_S850000x128_0_1
        (broadcastInDim S850000x1 ![0] bcast_S850000_S850000x1_0 (nrm (F := F) e))))

/-- The same aggregation of a 64-feature matrix. -/
def agg64 (e : (⟨S2x800000, .i32⟩ : BufTy).Contents (Elt F)) (h : (⟨S50000x64, .f32⟩ : BufTy).Contents (Elt F)) :
    (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 (dstI (F := F) e))
    (mulf (Host.gather gather_S50000x64_S850000x1_S850000x64_1_0_n_n_0_1_164 h (wrapCol (F := F) (srcI (F := F) e)))
      (broadcastInDim S850000x64 ![0, 1] bcast_S850000x1_S850000x64_0_1
        (broadcastInDim S850000x1 ![0] bcast_S850000_S850000x1_0 (nrm (F := F) e))))

/-- The network's last step: aggregate the second layer's product and add the bias `b2` to every row. -/
def outp (e : (⟨S2x800000, .i32⟩ : BufTy).Contents (Elt F)) (h : (⟨S50000x64, .f32⟩ : BufTy).Contents (Elt F))
    (b2 : (⟨S64, .f32⟩ : BufTy).Contents (Elt F)) : (⟨S50000x64, .f32⟩ : BufTy).Contents (Elt F) :=
  addf (agg64 (F := F) e h)
    (broadcastInDim S50000x64 ![0, 1] bcast_S1x64_S50000x64_0_1 (broadcastInDim S1x64 ![1] bcast_S64_S1x64_1 b2))

/-! ## The two dense products, index by index, on the extended reals -/

/-- Position (row of `i`, `k`) of a 50000 x 128 matrix, for an output position `i` with 128 columns. -/
abbrev rowK128 (i : S50000x128.Idx) (k : Fin 128) : S50000x128.Idx := fun a => match a with
  | ⟨0, _⟩ => ⟨(i 0).val, (i 0).isLt⟩
  | ⟨1, _⟩ => ⟨k.val, k.isLt⟩
/-- Position (`k`, column of `i`) of the 128 x 128 weight matrix. -/
abbrev kCol128 (i : S50000x128.Idx) (k : Fin 128) : S128x128.Idx := fun a => match a with
  | ⟨0, _⟩ => ⟨k.val, k.isLt⟩
  | ⟨1, _⟩ => ⟨(i 1).val, (i 1).isLt⟩
/-- Position (row of `i`, `k`) of a 50000 x 128 matrix, for an output position `i` with 64 columns. -/
abbrev rowK64 (i : S50000x64.Idx) (k : Fin 128) : S50000x128.Idx := fun a => match a with
  | ⟨0, _⟩ => ⟨(i 0).val, (i 0).isLt⟩
  | ⟨1, _⟩ => ⟨k.val, k.isLt⟩
/-- Position (`k`, column of `i`) of the 128 x 64 weight matrix. -/
abbrev kCol64 (i : S50000x64.Idx) (k : Fin 128) : S128x64.Idx := fun a => match a with
  | ⟨0, _⟩ => ⟨k.val, k.isLt⟩
  | ⟨1, _⟩ => ⟨(i 1).val, (i 1).isLt⟩

/-- The first layer's product `x W1`: entry (r, c) is the sum over k of x[r, k] * W1[k, c]. -/
def lin1 (x : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, x (rowK128 i k) * w (kCol128 i k)

/-- The second layer's product `relu(o + b1) W2`: entry (r, c) is the sum over k of max(o[r, k] + b1[k], 0) * W2[k, c]
    (the zero is the float word 0x00000000 read at the extended reals). -/
def lin2 (o : (⟨S50000x128, .f32⟩ : BufTy).Contents (Elt Ideal)) (b : (⟨S128, .f32⟩ : BufTy).Contents (Elt Ideal))
    (w : (⟨S128x64, .f32⟩ : BufTy).Contents (Elt Ideal)) : (⟨S50000x64, .f32⟩ : BufTy).Contents (Elt Ideal) :=
  fun i => ∑ k : Fin 128, max (o (rowK64 i k) + b (ValueIdx.ix1 k)) (Ideal.ofBits .f32 0x00000000#32) * w (kCol64 i k)

/-- What the network returns, as one function of its six arguments. -/
def net (x : (⟨S50000x128, .f32⟩ : BufTy).Contents (Elt Ideal)) (e : (⟨S2x800000, .i32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S50000x64, .f32⟩ : BufTy).Contents (Elt Ideal) :=
  outp (F := Ideal) e (lin2 (agg128 (F := Ideal) e (lin1 x w1)) b1 w2) b2

end Cert.KernelIdeal.Spec

end
-- ==== Proof.Region0.lean ====
/-
  The first dense product, block by block.

  The first kernel region walks the 50000 rows of `x` in ten blocks of 5000 rows. At a block it loads the block of `x`
  and the whole 128 x 128 matrix `W1`, multiplies them on the matrix unit into a zero accumulator, and stores the
  5000 x 128 product as that block of the result. On the extended reals entry (r, c) of a block's product is the sum
  over k of (block of x)[r, k] * W1[k, c]; row r of block t is row 5000 t + r of `x`, so every block is the restriction
  of ONE array, `Spec.lin1 x W1`, and since the ten blocks tile the 50000 rows the region's result array is that array.
  Nothing here needs the entries to be finite: no sum is reordered and nothing is distributed.
-/
import proofs.«138388_j18648747999233_1_alg».proof.Proof.Gen.KernelIdeal.Frame
import proofs.«138388_j18648747999233_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Region0

open Cert.KernelIdeal Cert.KernelIdeal.Gen

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-! ## One block's product at an index -/

theorem lhs_axis0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_axis0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_axis1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Position (row of `j`, `k`) of a 5000 x 128 block. -/
abbrev bRowK (j : S5000x128.Idx) (k : Fin 128) : S5000x128.Idx := fun a => match a with
  | ⟨0, _⟩ => ⟨(j 0).val, (j 0).isLt⟩
  | ⟨1, _⟩ => ⟨k.val, k.isLt⟩
/-- Position (`k`, column of `j`) of the 128 x 128 weight matrix. -/
abbrev bKCol (j : S5000x128.Idx) (k : Fin 128) : S128x128.Idx := fun a => match a with
  | ⟨0, _⟩ => ⟨k.val, k.isLt⟩
  | ⟨1, _⟩ => ⟨(j 1).val, (j 1).isLt⟩

/-- What the body stores, at position `j` of the block: the sum over the 128 contracted coordinates (the rounding of
    the two operands to bf16 is the identity on the extended reals, and the accumulator is the zero word). -/
theorem pay_apply (x0 : Vec Ideal S5000x128 .f32) (x1 : Vec Ideal S128x128 .f32) (j : S5000x128.Idx) :
    k0_pay1 (F := Ideal) x0 x1 j = ∑ k : Fin 128, x0 (bRowK j k) * x1 (bKCol j k) := by
  unfold k0_pay1
  show FloatOps.matmul dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = bRowK j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = bKCol j k := funext fun a => Fin.ext (by
    match a with
    | ⟨0, _⟩ => exact (rhs_axis0 _ _).trans hk
    | ⟨1, _⟩ => exact rhs_axis1 _ _)
  rw [el, er]
  rfl

/-! ## From the blocks to the array -/

/-- The two argument arrays as the region finds them, at their literal types. -/
abbrev xarr (c : Dev nD) : (⟨S50000x128, .f32⟩ : BufTy).Contents (Elt Ideal) := V c main_arg0
abbrev warr (c : Dev nD) : (⟨S128x128, .f32⟩ : BufTy).Contents (Elt Ideal) := V c main_arg2

/-- The printed index maps, decided over the ten grid points: the `x` block and the result block are block `t` of the
    rows, at column block 0; the weight matrix is always its one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of `Spec.lin1` of the two argument arrays as the region finds them. -/
theorem flushed_eq (c : Dev nD) (t : Fin cfg0.N) :
    (dat0 (F := Ideal) V c).flushed 2 t = ((cfg0.win 2).blk t).view.read (Elt Ideal) (Spec.lin1 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = Spec.lin1 (V c main_arg0) (V c main_arg2) (((cfg0.win 2).blk t).view.emb j)
  refine (pay_apply (iblk0 V c 0 t) (iblk0 V c 1 t) j).trans ?_
  unfold Spec.lin1
  refine Finset.sum_congr rfl fun k _ => ?_
  show xarr V c (((cfg0.win 0).blk t).view.emb (bRowK j k)) * warr V c (((cfg0.win 1).blk t).view.emb (bKCol j k))
    = xarr V c (Spec.rowK128 (((cfg0.win 2).blk t).view.emb j) k) * warr V c (Spec.kCol128 (((cfg0.win 2).blk t).view.emb j) k)
  have h0 : ((cfg0.win 0).blk t).view.emb (bRowK j k) = Spec.rowK128 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (bKCol j k) = Spec.kCol128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every block of rows is some point's: block `q` is point `q`'s. -/
theorem idx_onto : ∀ q : Fin 10, ∃ t : Fin cfg0.N, win0_2.index t = ![q.val, 0] :=
  (by decide +kernel : ∀ q : Fin 10, ∃ t : Fin grid0.N, win0_2.index t = ![q.val, 0])

/-- The ten blocks tile the array: row r lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the region: the whole product `x W1` of the two argument arrays as the region finds them. -/
theorem final (c : Dev nD) :
    (dat0 (F := Ideal) V c).arrAt 2 cfg0.N = Spec.lin1 (V c main_arg0) (V c main_arg2) :=
  (dat0 (F := Ideal) V c).arrAt_eq_of_cover 2 (Spec.lin1 (V c main_arg0) (V c main_arg2)) (fun t _ => flushed_eq V c t) cover

end Cert.KernelIdeal.Region0

end
-- ==== Proof.Region1.lean ====
/-
  The second dense product, block by block.

  The second kernel region walks the 50000 rows of the first layer's aggregate `o` in ten blocks of 5000 rows. At a
  block it loads the block of `o`, the bias `b1` and the whole 128 x 64 matrix `W2`, adds the bias to every row, takes
  the maximum with zero, multiplies by `W2` on the matrix unit into a zero accumulator, and stores the 5000 x 64 product
  as that block of the result. On the extended reals entry (r, c) of a block's product is the sum over k of
  max((block of o)[r, k] + b1[k], 0) * W2[k, c]; row r of block t is row 5000 t + r of `o`, so every block is the
  restriction of ONE array, `Spec.lin2 o b1 W2`, and the ten blocks tile the 50000 rows.
-/
import proofs.«138388_j18648747999233_1_alg».proof.Proof.Gen.KernelIdeal.Frame
import proofs.«138388_j18648747999233_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Region1

open Cert.KernelIdeal Cert.KernelIdeal.Gen

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## One block's product at an index -/

theorem lhs_axis0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_axis0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_axis1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Position (row of `j`, `k`) of a 5000 x 128 block. -/
abbrev bRowK (j : S5000x64.Idx) (k : Fin 128) : S5000x128.Idx :=
  ValueIdx.ix2 (⟨(j 0).val, (j 0).isLt⟩ : Fin 5000) k
/-- Position (`k`, column of `j`) of the 128 x 64 weight matrix. -/
abbrev bKCol (j : S5000x64.Idx) (k : Fin 128) : S128x64.Idx :=
  ValueIdx.ix2 k (⟨(j 1).val, (j 1).isLt⟩ : Fin 64)

/-- The rectified, biased block at (r, k): the bias is a row vector repeated down the 5000 rows. -/
theorem relu_apply (x0 : Vec Ideal S5000x128 .f32) (x1 : Vec Ideal S128 .f32) (p : Fin 5000) (k : Fin 128) :
    maximumf (F := Ideal) (addf (shapeCast S5000x128 x0 shapeCasts_S5000x128_S5000x128)
        (broadcastTo S5000x128 (shapeCast S1x128 x1 shapeCasts_S128_S1x128) broadcasts_S1x128_S5000x128))
      (broadcast S5000x128 (Scalar.ofBits .f32 0x00000000#32)) (ValueIdx.ix2 p k)
    = max (x0 (ValueIdx.ix2 p k) + x1 (ValueIdx.ix1 k)) (Ideal.ofBits .f32 0x00000000#32) := by
  rw [ValueIdx.maximumf_apply, ValueIdx.addf_apply, shapeCast_self, ValueIdx.broadcastTo_1b_ab_apply, ValueIdx.shapeCast_a_1a_apply]
  rfl

/-- What the body stores, at position `j` of the block: the sum over the 128 contracted coordinates. -/
theorem pay_apply (x0 : Vec Ideal S5000x128 .f32) (x1 : Vec Ideal S128 .f32) (x2 : Vec Ideal S128x64 .f32) (j : S5000x64.Idx) :
    k1_pay1 (F := Ideal) x0 x1 x2 j
      = ∑ k : Fin 128, max (x0 (bRowK j k) + x1 (ValueIdx.ix1 k)) (Ideal.ofBits .f32 0x00000000#32) * x2 (bKCol j k) := by
  unfold k1_pay1
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = bRowK j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = bKCol j k := funext fun a => Fin.ext (by
    match a with
    | ⟨0, _⟩ => exact (rhs_axis0 _ _).trans hk
    | ⟨1, _⟩ => exact rhs_axis1 _ _)
  rw [el, er]
  exact congrArg (· * x2 (bKCol j k)) (relu_apply x0 x1 _ k)

/-! ## From the blocks to the array -/

/-- The three argument arrays as the region finds them, at their literal types. -/
abbrev oarr (c : Dev nD) : (⟨S50000x128, .f32⟩ : BufTy).Contents (Elt Ideal) := V c main_v43
abbrev barr (c : Dev nD) : (⟨S128, .f32⟩ : BufTy).Contents (Elt Ideal) := V c main_arg3
abbrev warr (c : Dev nD) : (⟨S128x64, .f32⟩ : BufTy).Contents (Elt Ideal) := V c main_arg4

/-- The printed index maps, decided over the ten grid points. -/
theorem idx_facts : ∀ t : Fin cfg1.N, win1_0.index t (0 : Fin 2) = t.val
    ∧ win1_0.index t (1 : Fin 2) = 0
    ∧ win1_1.index t (0 : Fin 1) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- WHAT POINT `t` WRITES BACK is block `t` of `Spec.lin2` of the three argument arrays as the region finds them. -/
theorem flushed_eq (c : Dev nD) (t : Fin cfg1.N) :
    (dat1 (F := Ideal) V c).flushed 3 t
      = ((cfg1.win 3).blk t).view.read (Elt Ideal) (Spec.lin2 (V c main_v43) (V c main_arg3) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128) hz1, View.ld_unit_zero (S := S128x64) hz]
  obtain ⟨e0, e1, e2, e3, e4, e5, e6⟩ := idx_facts t
  funext j
  show k1_pay1 (F := Ideal) (iblk1 V c 0 t) (iblk1 V c 1 t) (iblk1 V c 2 t) j
    = Spec.lin2 (V c main_v43) (V c main_arg3) (V c main_arg4) (((cfg1.win 3).blk t).view.emb j)
  refine (pay_apply (iblk1 V c 0 t) (iblk1 V c 1 t) (iblk1 V c 2 t) j).trans ?_
  unfold Spec.lin2
  refine Finset.sum_congr rfl fun k _ => ?_
  show max (oarr V c (((cfg1.win 0).blk t).view.emb (bRowK j k)) + barr V c (((cfg1.win 1).blk t).view.emb (ValueIdx.ix1 k))) (Ideal.ofBits .f32 0x00000000#32)
      * warr V c (((cfg1.win 2).blk t).view.emb (bKCol j k))
    = max (oarr V c (Spec.rowK64 (((cfg1.win 3).blk t).view.emb j) k) + barr V c (ValueIdx.ix1 k)) (Ideal.ofBits .f32 0x00000000#32)
      * warr V c (Spec.kCol64 (((cfg1.win 3).blk t).view.emb j) k)
  have h0 : ((cfg1.win 0).blk t).view.emb (bRowK j k) = Spec.rowK64 (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ValueIdx.ix1 k) = ValueIdx.ix1 k := by
    funext a; apply Fin.ext
    match a with
    | ⟨0, _⟩ => show win1_1.index t (0 : Fin 1) * 128 + 1 * k.val = k.val; omega
  have h2 : ((cfg1.win 2).blk t).view.emb (bKCol j k) = Spec.kCol64 (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega
  rw [h0, h1, h2]

/-- An index of the result array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

/-- Every block of rows is some point's: block `q` is point `q`'s. -/
theorem idx_onto : ∀ q : Fin 10, ∃ t : Fin cfg1.N, win1_3.index t = ![q.val, 0] :=
  (by decide +kernel : ∀ q : Fin 10, ∃ t : Fin grid1.N, win1_3.index t = ![q.val, 0])

/-- The ten blocks tile the array: row r lies in the block of point r / 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE ARRAY after the region: the whole product `relu(o + b1) W2` of the three argument arrays as the region finds them. -/
theorem final (c : Dev nD) :
    (dat1 (F := Ideal) V c).arrAt 3 cfg1.N = Spec.lin2 (V c main_v43) (V c main_arg3) (V c main_arg4) :=
  (dat1 (F := Ideal) V c).arrAt_eq_of_cover 3 (Spec.lin2 (V c main_v43) (V c main_arg3) (V c main_arg4)) (fun t _ => flushed_eq V c t) cover

end Cert.KernelIdeal.Region1

end
-- ==== Proof.KernelValue.lean ====
/-
  The kernel's program computes `Spec.net`.

  @main of the kernel's program is five stretches of host operations around two kernel regions. The generated frame
  names the buffer contents at every boundary (`W0` … `W7`): a host stretch leaves its operations' values, a region
  leaves its result array at what its write-backs leave and every other buffer as it found it. Walking the boundaries:
  the first three stretches compute the edge lists and weights (`Spec.srcI`, `Spec.dstI`, `Spec.nrm`) from the edge
  array; the first region leaves `Spec.lin1 x W1` (Region0); the next stretch aggregates it (`Spec.agg128`); the second
  region leaves `Spec.lin2` of that, `b1` and `W2` (Region1); the last stretch aggregates again and adds `b2`
  (`Spec.outp`). Buffers a stretch or a region does not write are carried across it unchanged.
-/
import proofs.«138388_j18648747999233_1_alg».proof.Proof.Gen.KernelIdeal.Frame
import proofs.«138388_j18648747999233_1_alg».proof.Proof.Spec
import proofs.«138388_j18648747999233_1_alg».proof.Proof.Region0
import proofs.«138388_j18648747999233_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Walk

open Cert.KernelIdeal Cert.KernelIdeal.Gen

/-! ## Up to the first region: the edge lists, the weights, and the arguments, for any float family -/

section Host

variable {F : FTy → Type} [FloatOps F]
variable (m : (ℓ : Loc nD τ sig) → Buf (Elt F) ℓ) (ρ : Dev nD → PrngReg)

theorem W3_v5 (c : Dev nD) : W3 m ρ c (Proc.devRef .tc main_v5) = Spec.srcI (F := F) (m ((c : Thread nD τ).loc main_arg1)) := by
  show StableHlo.after hostOps0_2 (StableHlo.after hostOps0_1 (StableHlo.after hostOps0 (W0 m ρ c))) (Proc.devRef .tc main_v5) = _
  simp only [hostOps0_2, hostOps0_1, hostOps0]
  after_results_simp
  rfl

theorem W3_v6 (c : Dev nD) : W3 m ρ c (Proc.devRef .tc main_v6) = Spec.dstI (F := F) (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp
  rfl

theorem W3_v29 (c : Dev nD) : W3 m ρ c (Proc.devRef .tc main_v29) = Spec.nrm (F := F) (m ((c : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results_simp
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp
  try rfl

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp
  try rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp
  try rfl

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp
  try rfl

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp
  try rfl

/-! ## Across the first region: what it does not write is carried over -/

theorem W4_v5 (c : Dev nD) : W4 m ρ c (Proc.devRef .tc main_v5) = Spec.srcI (F := F) (m ((c : Thread nD τ).loc main_arg1)) :=
  (W4_of_ne m ρ c main_v5 (by decide)).trans (W3_v5 m ρ c)
theorem W4_v6 (c : Dev nD) : W4 m ρ c (Proc.devRef .tc main_v6) = Spec.dstI (F := F) (m ((c : Thread nD τ).loc main_arg1)) :=
  (W4_of_ne m ρ c main_v6 (by decide)).trans (W3_v6 m ρ c)
theorem W4_v29 (c : Dev nD) : W4 m ρ c (Proc.devRef .tc main_v29) = Spec.nrm (F := F) (m ((c : Thread nD τ).loc main_arg1)) :=
  (W4_of_ne m ρ c main_v29 (by decide)).trans (W3_v29 m ρ c)
theorem W4_arg3 (c : Dev nD) : W4 m ρ c (Proc.devRef .tc main_arg3) = m ((c : Thread nD τ).loc main_arg3) := (W4_of_ne m ρ c main_arg3 (by decide)).trans (W3_arg3 m ρ c)
theorem W4_arg4 (c : Dev nD) : W4 m ρ c (Proc.devRef .tc main_arg4) = m ((c : Thread nD τ).loc main_arg4) := (W4_of_ne m ρ c main_arg4 (by decide)).trans (W3_arg4 m ρ c)
theorem W4_arg5 (c : Dev nD) : W4 m ρ c (Proc.devRef .tc main_arg5) = m ((c : Thread nD τ).loc main_arg5) := (W4_of_ne m ρ c main_arg5 (by decide)).trans (W3_arg5 m ρ c)

/-! ## Across the stretch between the regions -/

theorem W5_v5 (c : Dev nD) : W5 m ρ c (Proc.devRef .tc main_v5) = Spec.srcI (F := F) (m ((c : Thread nD τ).loc main_arg1)) := by
  show StableHlo.after hostOps1 (W4 m ρ c) (Proc.devRef .tc main_v5) = _
  simp only [hostOps1]
  after_results_simp
  exact W4_v5 m ρ c

theorem W5_v6 (c : Dev nD) : W5 m ρ c (Proc.devRef .tc main_v6) = Spec.dstI (F := F) (m ((c : Thread nD τ).loc main_arg1)) := by
  show StableHlo.after hostOps1 (W4 m ρ c) (Proc.devRef .tc main_v6) = _
  simp only [hostOps1]
  after_results_simp
  exact W4_v6 m ρ c

theorem W5_v29 (c : Dev nD) : W5 m ρ c (Proc.devRef .tc main_v29) = Spec.nrm (F := F) (m ((c : Thread nD τ).loc main_arg1)) := by
  show StableHlo.after hostOps1 (W4 m ρ c) (Proc.devRef .tc main_v29) = _
  simp only [hostOps1]
  after_results_simp
  exact W4_v29 m ρ c

theorem W5_arg3 (c : Dev nD) : W5 m ρ c (Proc.devRef .tc main_arg3) = m ((c : Thread nD τ).loc main_arg3) := by
  show StableHlo.after hostOps1 (W4 m ρ c) (Proc.devRef .tc main_arg3) = _
  simp only [hostOps1]
  after_results_simp
  exact W4_arg3 m ρ c

theorem W5_arg4 (c : Dev nD) : W5 m ρ c (Proc.devRef .tc main_arg4) = m ((c : Thread nD τ).loc main_arg4) := by
  show StableHlo.after hostOps1 (W4 m ρ c) (Proc.devRef .tc main_arg4) = _
  simp only [hostOps1]
  after_results_simp
  exact W4_arg4 m ρ c

theorem W5_arg5 (c : Dev nD) : W5 m ρ c (Proc.devRef .tc main_arg5) = m ((c : Thread nD τ).loc main_arg5) := by
  show StableHlo.after hostOps1 (W4 m ρ c) (Proc.devRef .tc main_arg5) = _
  simp only [hostOps1]
  after_results_simp
  exact W4_arg5 m ρ c

/-! ## Across the second region -/

theorem W6_v5 (c : Dev nD) : W6 m ρ c (Proc.devRef .tc main_v5) = Spec.srcI (F := F) (m ((c : Thread nD τ).loc main_arg1)) :=
  (W6_of_ne m ρ c main_v5 (by decide)).trans (W5_v5 m ρ c)
theorem W6_v6 (c : Dev nD) : W6 m ρ c (Proc.devRef .tc main_v6) = Spec.dstI (F := F) (m ((c : Thread nD τ).loc main_arg1)) :=
  (W6_of_ne m ρ c main_v6 (by decide)).trans (W5_v6 m ρ c)
theorem W6_v29 (c : Dev nD) : W6 m ρ c (Proc.devRef .tc main_v29) = Spec.nrm (F := F) (m ((c : Thread nD τ).loc main_arg1)) :=
  (W6_of_ne m ρ c main_v29 (by decide)).trans (W5_v29 m ρ c)
theorem W6_arg5 (c : Dev nD) : W6 m ρ c (Proc.devRef .tc main_arg5) = m ((c : Thread nD τ).loc main_arg5) := (W6_of_ne m ρ c main_arg5 (by decide)).trans (W5_arg5 m ρ c)

end Host

/-! ## The two regions' arrays and the result, on the extended reals -/

section Value

variable (m : (ℓ : Loc nD τ sig) → Buf (Elt Ideal) ℓ) (ρ : Dev nD → PrngReg)

/-- After the first region its result array holds `x W1`. -/
theorem W4_v30 (c : Dev nD) :
    W4 m ρ c (Proc.devRef .tc main_v30) = Spec.lin1 (m ((c : Thread nD τ).loc main_arg0)) (m ((c : Thread nD τ).loc main_arg2)) :=
  (W4_arr m ρ c 2).trans ((Region0.final (V3 m ρ) c).trans (by
    show Spec.lin1 (W3 m ρ c (Proc.devRef .tc main_arg0)) (W3 m ρ c (Proc.devRef .tc main_arg2)) = _
    rw [W3_arg0, W3_arg2]))

/-- The stretch between the regions aggregates it over the incoming edges. -/
theorem W5_v43 (c : Dev nD) :
    W5 m ρ c (Proc.devRef .tc main_v43) = Spec.agg128 (F := Ideal) (m ((c : Thread nD τ).loc main_arg1)) (Spec.lin1 (m ((c : Thread nD τ).loc main_arg0)) (m ((c : Thread nD τ).loc main_arg2))) := by
  show StableHlo.after hostOps1 (W4 m ρ c) (Proc.devRef .tc main_v43) = _
  simp only [hostOps1]
  after_results_simp
  rw [W4_v5, W4_v6, W4_v29, W4_v30]
  rfl

/-- After the second region its result array holds `relu(agg + b1) W2`. -/
theorem W6_v44 (c : Dev nD) :
    W6 m ρ c (Proc.devRef .tc main_v44)
      = Spec.lin2 (Spec.agg128 (F := Ideal) (m ((c : Thread nD τ).loc main_arg1)) (Spec.lin1 (m ((c : Thread nD τ).loc main_arg0)) (m ((c : Thread nD τ).loc main_arg2)))) (m ((c : Thread nD τ).loc main_arg3)) (m ((c : Thread nD τ).loc main_arg4)) :=
  (W6_arr m ρ c 3).trans ((Region1.final (V5 m ρ) c).trans (by
    show Spec.lin2 (W5 m ρ c (Proc.devRef .tc main_v43)) (W5 m ρ c (Proc.devRef .tc main_arg3)) (W5 m ρ c (Proc.devRef .tc main_arg4)) = _
    rw [W5_v43, W5_arg3, W5_arg4]))

/-- THE KERNEL'S RESULT: the last stretch aggregates the second product and adds `b2`. -/
theorem W7_v60 (c : Dev nD) :
    W7 m ρ c (Proc.devRef .tc main_v60) = Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v60) = _
  simp only [hostOps2]
  after_results_simp
  rw [W6_v5, W6_v6, W6_v29, W6_v44, W6_arg5]
  rfl

end Value

end Cert.KernelIdeal.Walk

end
-- ==== Proof.RefSide.lean ====
/-
  The reference computes `Spec.net`.

  The reference's program is one straight line of host operations; read one operation at a time (the stage functions
  `val_main_vN` of the read-back module) its result is
      v94 = aggregate64(v55) + b2,   v55 = relu(v43 + b1) W2,   v43 = aggregate128(v7),   v7 = x W1,
  where the edge bookkeeping (sources, targets, degrees, weights) is computed twice from the same edge array by the
  same operations. The two dense products are the host's `dot_general`, on the extended reals the plain sums
  `Spec.lin1` and `Spec.lin2`; everything around them is, operation for operation, the chain `Spec` names, so those
  equations are closed by unfolding the stage functions and the names, never by opening a gather or a scatter.
-/
import proofs.«138388_j18648747999233_1_alg».proof.Proof.RefRead
import proofs.«138388_j18648747999233_1_alg».proof.Proof.Spec

noncomputable section

open Idealize.ShloMosaic Idealize.ShloMosaic.TcCoe Idealize.SL.Sem
open scoped BigOperators

namespace Cert.ReferenceIdeal.Bridge

open Cert.ReferenceIdeal Cert.ReferenceIdeal.Gen Cert.ReferenceIdeal.ReadP
open Cert.KernelIdeal (Spec.lin1 Spec.lin2 Spec.agg128 Spec.agg64 Spec.outp Spec.net Spec.rowK128 Spec.kCol128 Spec.rowK64 Spec.kCol64)

/-! ## The two dense products -/

theorem lidx7_eq (i : S50000x128.Idx) (k : Fin 128) : lidx_main_v7 i k = Cert.KernelIdeal.Spec.rowK128 i k :=
  funext fun a => Fin.ext (by match a with | ⟨0, _⟩ => rfl | ⟨1, _⟩ => rfl)
theorem ridx7_eq (i : S50000x128.Idx) (k : Fin 128) : ridx_main_v7 i k = Cert.KernelIdeal.Spec.kCol128 i k :=
  funext fun a => Fin.ext (by match a with | ⟨0, _⟩ => rfl | ⟨1, _⟩ => rfl)
theorem lidx55_eq (i : S50000x64.Idx) (k : Fin 128) : lidx_main_v55 i k = Cert.KernelIdeal.Spec.rowK64 i k :=
  funext fun a => Fin.ext (by match a with | ⟨0, _⟩ => rfl | ⟨1, _⟩ => rfl)
theorem ridx55_eq (i : S50000x64.Idx) (k : Fin 128) : ridx_main_v55 i k = Cert.KernelIdeal.Spec.kCol64 i k :=
  funext fun a => Fin.ext (by match a with | ⟨0, _⟩ => rfl | ⟨1, _⟩ => rfl)
/-- The bias, broadcast to a row and then to every row, read at (r, k) is `b1[k]`. -/
theorem bias_idx (i : S50000x64.Idx) (k : Fin 128) :
    idx_main_v44 (idx_main_v45 (Cert.KernelIdeal.Spec.rowK64 i k)) = ValueIdx.ix1 k :=
  funext fun a => Fin.ext (by match a with | ⟨0, _⟩ => rfl)

/-- The host's first product is `Spec.lin1`. -/
theorem v7_eq (x0 : (⟨S50000x128, .f32⟩ : BufTy).Contents (Elt Ideal)) (x2 : (⟨S128x128, .f32⟩ : BufTy).Contents (Elt Ideal)) :
    val_main_v7 (F := Ideal) x0 x2 = Cert.KernelIdeal.Spec.lin1 x0 x2 := by
  funext i
  rw [val_main_v7_apply]
  unfold Cert.KernelIdeal.Spec.lin1
  refine Finset.sum_congr rfl fun k _ => ?_
  rw [lidx7_eq, ridx7_eq]

/-- The host's second product, of the rectified first layer, is `Spec.lin2` of the first layer's aggregate. -/
theorem v55_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v55 (F := Ideal) x0 x1 x2 x3 x4 = Cert.KernelIdeal.Spec.lin2 (val_main_v43 (F := Ideal) x0 x1 x2) x3 x4 := by
  funext i
  rw [val_main_v55_apply]
  unfold Cert.KernelIdeal.Spec.lin2
  refine Finset.sum_congr rfl fun k _ => ?_
  rw [lidx55_eq, ridx55_eq, val_main_v47_apply, val_main_v46_apply, val_main_v45_apply, val_main_v44_apply, bias_idx,
    val_main_call1_v0_apply, val_main_call1_cst_apply]
  rfl

/-! ## The operations around the products: the same chain, named in `Spec` -/

section Chain

variable {F : FTy → Type} [FloatOps F]

/-- The first layer's aggregate: the host's scatter-add of the weighted gathered rows of the product `v7` is
    `Spec.agg128` of it (operation for operation; nothing is opened). -/
theorem v43_chain (x0 : (⟨S50000x128, .f32⟩ : BufTy).Contents (Elt F)) (x1 : (⟨S2x800000, .i32⟩ : BufTy).Contents (Elt F))
    (x2 : (⟨S128x128, .f32⟩ : BufTy).Contents (Elt F)) :
    val_main_v43 (F := F) x0 x1 x2 = Cert.KernelIdeal.Spec.agg128 (F := F) x1 (val_main_v7 (F := F) x0 x2) := rfl

/-- The result: the second aggregate of the product `v55`, plus the bias, is `Spec.outp` of it. The edge bookkeeping
    the reference computes a second time is the same function of the edge array. -/
theorem v94_chain (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F)) :
    val_main_v94 (F := F) x0 x1 x2 x3 x4 x5 = Cert.KernelIdeal.Spec.outp (F := F) x1 (val_main_v55 (F := F) x0 x1 x2 x3 x4) x5 := rfl

end Chain

/-- THE REFERENCE'S RESULT is `Spec.net` of its six arguments. -/
theorem ref_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v94 (F := Ideal) x0 x1 x2 x3 x4 x5 = Cert.KernelIdeal.Spec.net x0 x1 x2 x3 x4 x5 := by
  rw [v94_chain, v55_eq, v43_chain, v7_eq]
  rfl

end Cert.ReferenceIdeal.Bridge

end
-- ==== Proof.lean ====
/-
  A two-layer graph convolution network, out = agg(relu(agg(x W1) + b1) W2) + b2, where agg(h)[v, :] is the sum over the
  edges that end at node v (800000 given edges and one self loop per node) of deg(source)^(-1/2) deg(target)^(-1/2) times
  row source of h.

  The kernel's program computes the two dense products in kernel regions, ten blocks of 5000 rows each on the matrix
  unit (the second with the bias and the rectification fused in front), and everything about the edges on the host; the
  reference computes both products as one host product each, and recomputes the edge weights for the second layer.
  On the extended reals a block's product is the plain sum over the 128 contracted coordinates (the operands' rounding to
  bf16 is the identity there, the accumulator is zero), so the blocks are restrictions of the whole products
  `Spec.lin1` and `Spec.lin2` and tile them; the host operations around the products are the same in both programs and
  are carried as opaque functions. Both programs therefore end at `Spec.net` of the six arguments. No law used needs
  finite entries, so the precondition is never opened. The frames are the generated ones; the reference's is its run
  with the result dropped; the idealization rewrote nothing.
-/
import proofs.«138388_j18648747999233_1_alg».proof.Defs
import proofs.«138388_j18648747999233_1_alg».proof.Proof.Gen.Kernel
import proofs.«138388_j18648747999233_1_alg».proof.Proof.Gen.Kernel.Skeleton
import proofs.«138388_j18648747999233_1_alg».proof.Proof.Gen.Kernel.Launch
import proofs.«138388_j18648747999233_1_alg».proof.Proof.Gen.Kernel.Points
import proofs.«138388_j18648747999233_1_alg».proof.Proof.Gen.Kernel.Frame
import proofs.«138388_j18648747999233_1_alg».proof.Proof.Gen.KernelIdeal
import proofs.«138388_j18648747999233_1_alg».proof.Proof.Gen.KernelIdeal.Skeleton
import proofs.«138388_j18648747999233_1_alg».proof.Proof.Gen.KernelIdeal.Launch
import proofs.«138388_j18648747999233_1_alg».proof.Proof.Gen.KernelIdeal.Points
import proofs.«138388_j18648747999233_1_alg».proof.Proof.Gen.KernelIdeal.Frame
import proofs.«138388_j18648747999233_1_alg».proof.Proof.Gen.ReferenceIdeal
import proofs.«138388_j18648747999233_1_alg».proof.Proof.Gen.Pre_finite_inputs
import proofs.«138388_j18648747999233_1_alg».proof.Proof.KernelRun
import proofs.«138388_j18648747999233_1_alg».proof.Proof.KernelValue
import proofs.«138388_j18648747999233_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end at `Spec.net` of the arguments, which agree. -/
theorem algebraic : Cert.algebraic_KernelIdeal_ReferenceIdeal := by
  intro m ρ m' ρ' _ hagree
  refine ⟨fun c => Cert.KernelIdeal.Spec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.W7_v60 m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v94_eq, Cert.ReferenceIdeal.Bridge.ref_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
